-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S640000 32) (main_arg2 : IVec S640000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 35
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S640000, .i32⟩
  | .hbm, ⟨9, _⟩ => ⟨S640000, .i1⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S640000, .i32⟩
  | .hbm, ⟨14, _⟩ => ⟨S640000x1, .i32⟩
  | .hbm, ⟨15, _⟩ => ⟨S640000x128, .f32⟩
  | .hbm, ⟨16, _⟩ => ⟨S_, .f32⟩
  | .hbm, ⟨17, _⟩ => ⟨S100000x128, .f32⟩
  | .hbm, ⟨18, _⟩ => ⟨S640000x1, .i32⟩
  | .hbm, ⟨19, _⟩ => ⟨S100000x128, .f32⟩
  | .hbm, ⟨20, _⟩ => ⟨S_, .f32⟩
  | .hbm, ⟨21, _⟩ => ⟨S640000, .f32⟩
  | .hbm, ⟨22, _⟩ => ⟨S_, .f32⟩
  | .hbm, ⟨23, _⟩ => ⟨S100000, .f32⟩
  | .hbm, ⟨24, _⟩ => ⟨S640000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S1x128, .f32⟩
  | .hbm, ⟨34, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S640000, .i32⟩
  | .hbm, ⟨9, _⟩ => ⟨S640000, .i1⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S640000, .i32⟩
  | .hbm, ⟨14, _⟩ => ⟨S640000x1, .i32⟩
  | .hbm, ⟨15, _⟩ => ⟨S640000x128, .f32⟩
  | .hbm, ⟨16, _⟩ => ⟨S_, .f32⟩
  | .hbm, ⟨17, _⟩ => ⟨S100000x128, .f32⟩
  | .hbm, ⟨18, _⟩ => ⟨S640000x1, .i32⟩
  | .hbm, ⟨19, _⟩ => ⟨S100000x128, .f32⟩
  | .hbm, ⟨20, _⟩ => ⟨S_, .f32⟩
  | .hbm, ⟨21, _⟩ => ⟨S640000, .f32⟩
  | .hbm, ⟨22, _⟩ => ⟨S_, .f32⟩
  | .hbm, ⟨23, _⟩ => ⟨S100000, .f32⟩
  | .hbm, ⟨24, _⟩ => ⟨S640000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Projection.lean ====
/-
  The dense projection of a mean-aggregating graph layer, as ONE function of its arrays, entry by entry.

  For node features x (100000 x 128), aggregated neighbour features h (100000 x 128), two weight matrices
  Ws, Wn (128 x 128) and two bias vectors bs, bn (128), entry (p, q) of the result is

      ((sum_k x (p, k) * Ws (k, q)) + bs q) + (sum_k h (p, k) * Wn (k, q)) + bn q,

  the four terms added in this order. Over the extended reals addition is commutative and associative, so
  nothing here depends on the order in which a sum over k is taken; no entry needs to be finite.
-/
import Idealize.ShloMosaic.PureOps.Ideal
import Idealize.ShloMosaic.Lib.ValueIdx

noncomputable section

namespace Cert.Sage

open Idealize.ShloMosaic Idealize.ShloMosaic.ValueIdx

/-- Entry (p, q) of the projection: row p of x against column q of Ws, plus bs q, plus row p of h against
    column q of Wn, plus bn q. -/
def projAt (x h : FVec Ideal ⟨2, ![100000, 128]⟩ .f32) (ws wn : FVec Ideal ⟨2, ![128, 128]⟩ .f32)
    (bs bn : FVec Ideal ⟨1, ![128]⟩ .f32) (p : Fin 100000) (q : Fin 128) : Ideal .f32 :=
  ((∑ k : Fin 128, x (ix2 p k) * ws (ix2 k q)) + bs (ix1 q) + ∑ k : Fin 128, h (ix2 p k) * wn (ix2 k q)) + bn (ix1 q)

/-- The projection as a whole array. -/
def proj (x h : FVec Ideal ⟨2, ![100000, 128]⟩ .f32) (ws wn : FVec Ideal ⟨2, ![128, 128]⟩ .f32)
    (bs bn : FVec Ideal ⟨1, ![128]⟩ .f32) : FVec Ideal ⟨2, ![100000, 128]⟩ .f32 :=
  fun i => projAt x h ws wn bs bn (i 0) (i 1)

/-- The array read at (p, q) is the entry. -/
theorem proj_ix2 (x h : FVec Ideal ⟨2, ![100000, 128]⟩ .f32) (ws wn : FVec Ideal ⟨2, ![128, 128]⟩ .f32)
    (bs bn : FVec Ideal ⟨1, ![128]⟩ .f32) (p : Fin 100000) (q : Fin 128) :
    proj x h ws wn bs bn (ix2 p q) = projAt x h ws wn bs bn p q := rfl

end Cert.Sage

end
-- ==== Proof.RefTail.lean ====
/-
  The reference's last nine operations read at an entry. After the aggregation h = neigh_sum / max(deg, 1)
  the reference takes two whole matrix products, x * Ws and h * Wn, and adds the two bias vectors, each
  broadcast down the rows: ((x * Ws + bs) + h * Wn) + bn. Read at (p, q) each product is a sum over the 128
  contracted positions and each broadcast bias reads its vector at q, so the result is the projection's
  entry (p, q). The aggregation itself is left as it is printed: it is the same term on the kernel's side.
-/
import proofs.«176327_j25950192402572_1_alg».proof.Proof.Gen.ReferenceIdeal.Read
import proofs.«176327_j25950192402572_1_alg».proof.Proof.Projection

noncomputable section

namespace Cert.Sage.Ref

open Cert.ReferenceIdeal Cert.ReferenceIdeal.Read Idealize.ShloMosaic Idealize.ShloMosaic.ValueIdx

/-- The reference's result is the projection of the features and of the aggregated neighbour features. -/
theorem result_eq_proj (x0 : (⟨S100000x128, .f32⟩ : BufTy).Contents (Elt Ideal)) (x1 x2 : (⟨S640000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v27 (F := Ideal) x0 x1 x2 x3 x4 x5 x6
      = Cert.Sage.proj x0 (val_main_v18 (F := Ideal) x0 x1 x2) x3 x5 x4 x6 := by
  funext i
  obtain ⟨p, q, rfl⟩ : ∃ (p : Fin 100000) (q : Fin 128), i = ix2 p q := ⟨i 0, i 1, eq_ix2 i⟩
  rw [val_main_v27_apply, val_main_v24_apply, val_main_v22_apply, val_main_v19_apply, val_main_v21_apply,
    val_main_v20_apply, val_main_v23_apply, val_main_v26_apply, val_main_v25_apply]
  have el : ∀ k : Fin 128, lidx_main_v19 (ix2 p q) k = ix2 p k := fun k => funext fun a => Fin.ext (by
    match a with | ⟨0, _⟩ => rfl | ⟨1, _⟩ => rfl)
  have er : ∀ k : Fin 128, ridx_main_v19 (ix2 p q) k = ix2 k q := fun k => funext fun a => Fin.ext (by
    match a with | ⟨0, _⟩ => rfl | ⟨1, _⟩ => rfl)
  have el' : ∀ k : Fin 128, lidx_main_v23 (ix2 p q) k = ix2 p k := fun k => funext fun a => Fin.ext (by
    match a with | ⟨0, _⟩ => rfl | ⟨1, _⟩ => rfl)
  have er' : ∀ k : Fin 128, ridx_main_v23 (ix2 p q) k = ix2 k q := fun k => funext fun a => Fin.ext (by
    match a with | ⟨0, _⟩ => rfl | ⟨1, _⟩ => rfl)
  have eb : idx_main_v20 (idx_main_v21 (ix2 p q)) = ix1 q := funext fun a => Fin.ext (by
    match a with | ⟨0, _⟩ => rfl)
  have eb' : idx_main_v25 (idx_main_v26 (ix2 p q)) = ix1 q := funext fun a => Fin.ext (by
    match a with | ⟨0, _⟩ => rfl)
  simp only [el, er, el', er', eb, eb']
  rfl

end Cert.Sage.Ref

end
-- ==== Proof.LibPlainDot.lean ====
/-
  General lemmas for reading a kernel's vector operations at an index, at the ideal instance.

  * `matmul_plain_apply`: a matrix product of an [M, K] operand with a [K, N] operand into a zero accumulator, read at
    (p, j), is the sum over k of lhs (p, k) · rhs (k, j), for any record of dimension numbers whose four axis facts are
    given (row of the output from the left operand's axis 0, column from the right operand's axis 1, the one contracted
    index on the left's axis 1 and the right's axis 0).
  * `shapeCast_a_a1_apply`: an [a] vector recast as an [a, 1] column reads, at (p, u), the vector at p.
  * `broadcastTo_a1_ab_apply`: an [a, 1] column broadcast to [a, b] reads, at (p, c), the column at (p, 0).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- A plain two-operand matrix product into the zero accumulator, read at (p, j): ∑ₖ lhs (p, k) · rhs (k, j). -/
theorem matmul_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    FloatOps.matmul d prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Payload.lean ====
/-
  What the kernel body stores, read at an entry of its 5000 x 128 block. The body loads a block of node
  features x, the matching block of aggregated neighbour features h, both weight matrices and both bias rows;
  it multiplies x by Ws and h by Wn on the matrix unit, each product into a zero accumulator, and adds
  x * Ws, the first bias row repeated down the block, h * Wn, and the second bias row, in that order. The
  narrowing of the operands before each product is the identity over the extended reals. Read at (p, q) each
  product is the sum over the 128 contracted positions of the left operand's row p against the right
  operand's column q, and a repeated bias row reads the row at (0, q).
-/
import proofs.«176327_j25950192402572_1_alg».proof.Proof.Gen.KernelIdeal.Skeleton
import proofs.«176327_j25950192402572_1_alg».proof.Proof.LibPlainDot

noncomputable section

namespace Cert.Sage.Body

open Cert.KernelIdeal Cert.KernelIdeal.Gen Idealize.ShloMosaic Idealize.ShloMosaic.TcCoe Idealize.ShloMosaic.ValueIdx

/-! The four axis facts of the body's matrix product: the output's row is the left operand's row, its column
    the right operand's column, and the one contracted position runs along the left operand's columns and the
    right operand's rows. -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contracted (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_contracted (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's product with a weight matrix into the zero accumulator, read at (p, j): the row against the column. -/
theorem block_product {φ₁ φ₂ : FTy} (l : FVec Ideal S5000x128 φ₁) (r : FVec Ideal S128x128 φ₂) (p : Fin 5000) (j : Fin 128) :
    FloatOps.matmul dot_S5000x128_S128x128_S5000x128_1_0_0_1_n_n none l r (constant (F := Ideal) S5000x128 .f32 0x00000000#32) (ix2 p j)
      = ∑ k : Fin 128, l (ix2 p k) * r (ix2 k j) :=
  Cert.Lib.matmul_plain_apply dot_S5000x128_S128x128_S5000x128_1_0_0_1_n_n rfl rfl lhs_row lhs_contracted rhs_contracted rhs_col none l r p j

/-- The stored value at (p, q): x's row p against Ws's column q, plus the first bias row at q, plus h's row p
    against Wn's column q, plus the second bias row at q. -/
theorem stored_apply (x h : FVec Ideal S5000x128 .f32) (ws wn : FVec Ideal S128x128 .f32) (bs bn : FVec Ideal S1x128 .f32)
    (p : Fin 5000) (q : Fin 128) :
    k0_pay1 (F := Ideal) x h ws wn bs bn (ix2 p q)
      = ((∑ k : Fin 128, x (ix2 p k) * ws (ix2 k q)) + bs (ix2 (0 : Fin 1) q) + ∑ k : Fin 128, h (ix2 p k) * wn (ix2 k q))
          + bn (ix2 (0 : Fin 1) q) := by
  unfold k0_pay1
  simp only [addf_apply, shapeCast_self]
  rw [broadcastTo_1b_ab_apply, broadcastTo_1b_ab_apply]
  simp only [matmul]
  rw [block_product, block_product]
  rfl

end Cert.Sage.Body

end
-- ==== Proof.BlockValue.lean ====
/-
  One block of the kernel's output is the matching rows of the projection. Grid point t works on rows
  5000 t ... 5000 t + 4999: its feature block and its neighbour block are those rows of the two 100000 x 128
  arrays, the weight blocks are the whole weight matrices, and each bias block is its bias vector laid out as
  one row. Entry (p, q) of what the body stores is then the projection's entry (5000 t + p, q): the two row
  sums run over the same 128 products, and the bias rows read the bias vectors at q.
-/
import proofs.«176327_j25950192402572_1_alg».proof.Proof.Payload
import proofs.«176327_j25950192402572_1_alg».proof.Proof.Projection

noncomputable section

namespace Cert.Sage.Body

open Cert.KernelIdeal Cert.KernelIdeal.Gen Idealize.ShloMosaic Idealize.ShloMosaic.TcCoe Idealize.ShloMosaic.ValueIdx

/-- The stored block read at an entry is the projection read at the entry 5000 t rows further down, given
    how each of the six blocks sits in its array. -/
theorem stored_eq_proj (X H : FVec Ideal S100000x128 .f32) (Ws Wn : FVec Ideal S128x128 .f32) (Bs Bn : FVec Ideal S128 .f32)
    (x h : FVec Ideal S5000x128 .f32) (ws wn : FVec Ideal S128x128 .f32) (bs bn : FVec Ideal S1x128 .f32) (t : ℕ)
    (hx : ∀ (y : S5000x128.Idx) (i : S100000x128.Idx), (i 0).val = 5000 * t + (y 0).val → (i 1).val = (y 1).val → x y = X i)
    (hh : ∀ (y : S5000x128.Idx) (i : S100000x128.Idx), (i 0).val = 5000 * t + (y 0).val → (i 1).val = (y 1).val → h y = H i)
    (hws : ws = Ws) (hwn : wn = Wn)
    (hbs : ∀ q : Fin 128, bs (ix2 (0 : Fin 1) q) = Bs (ix1 q)) (hbn : ∀ q : Fin 128, bn (ix2 (0 : Fin 1) q) = Bn (ix1 q))
    (y : S5000x128.Idx) (i : S100000x128.Idx) (h0 : (i 0).val = 5000 * t + (y 0).val) (h1 : (i 1).val = (y 1).val) :
    k0_pay1 (F := Ideal) x h ws wn bs bn y = Cert.Sage.proj X H Ws Wn Bs Bn i := by
  obtain ⟨p, q, rfl⟩ : ∃ (p : Fin 5000) (q : Fin 128), y = ix2 p q := ⟨y 0, y 1, eq_ix2 y⟩
  obtain ⟨p', q', rfl⟩ : ∃ (p' : Fin 100000) (q' : Fin 128), i = ix2 p' q' := ⟨i 0, i 1, eq_ix2 i⟩
  have hp : p'.val = 5000 * t + p.val := h0
  obtain rfl : q' = q := Fin.ext h1
  subst hws hwn
  rw [stored_apply, Cert.Sage.proj_ix2, hbs, hbn]
  unfold Cert.Sage.projAt
  have e1 : ∀ k : Fin 128, x (ix2 p k) = X (ix2 p' k) := fun k => hx (ix2 p k) (ix2 p' k) hp rfl
  have e2 : ∀ k : Fin 128, h (ix2 p k) = H (ix2 p' k) := fun k => hh (ix2 p k) (ix2 p' k) hp rfl
  simp only [e1, e2]

end Cert.Sage.Body

end
-- ==== Proof.Entry.lean ====
/-
  The arrays the kernel's seven windows stage, as the pallas_call finds them. Four are arguments no operation
  before the call writes (the node features, the two weight matrices; the output is written by the call). The
  other three are computed on the host first: the aggregated neighbour features h = neigh_sum / max(deg, 1)
  (a gather of feature rows by source node, a scatter-add of them by destination node, the same scatter-add
  of ones for the in-degree, a maximum with one, a division) and the two bias vectors recast as 1 x 128 rows.
  The aggregation is the very chain of operations the reference opens with, so its array is named here by the
  reference's own term for that stage and never opened.
-/
import proofs.«176327_j25950192402572_1_alg».proof.Proof.Gen.KernelIdeal.Frame
import proofs.«176327_j25950192402572_1_alg».proof.Proof.Gen.ReferenceIdeal.Read
import Idealize.ShloMosaic.Lib.StableHlo.Run

noncomputable section

namespace Cert.Sage.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 2000000 in
/-- The second window's array: the aggregated neighbour features, as the reference computes them from the
    node features, the source nodes and the destination nodes. -/
theorem hneigh_entry (c : Dev nD) :
    (V m c main_v18 : S100000x128.Idx → Ideal .f32)
      = Cert.ReferenceIdeal.Read.val_main_v18 (F := Ideal) (m ((c : Thread nD τ).loc main_arg0))
          (m ((c : Thread nD τ).loc main_arg1)) (m ((c : Thread nD τ).loc main_arg2)) := by
  dsimp only [Gen.V, Gen.hostOps0]
  after_results_simp <;> rfl

/-- The fifth window's array: the first bias vector as a 1 x 128 row. -/
theorem bself_entry (c : Dev nD) :
    (V m c main_v19 : S1x128.Idx → Ideal .f32)
      = shapeCast S1x128 (m ((c : Thread nD τ).loc main_arg4) : S128.Idx → Ideal .f32) shapeCasts_S128_S1x128 := by
  dsimp only [Gen.V, Gen.hostOps0]
  after_results
  rfl

/-- The sixth window's array: the second bias vector as a 1 x 128 row. -/
theorem bneigh_entry (c : Dev nD) :
    (V m c main_v20 : S1x128.Idx → Ideal .f32)
      = shapeCast S1x128 (m ((c : Thread nD τ).loc main_arg6) : S128.Idx → Ideal .f32) shapeCasts_S128_S1x128 := by
  dsimp only [Gen.V, Gen.hostOps0]
  after_results
  rfl

end Cert.Sage.Entry

end
-- ==== Proof.Blocks.lean ====
/-
  From the twenty blocks to the whole output array. The grid has twenty points; point t stages rows
  5000 t ... 5000 t + 4999 of the node features and of the aggregated neighbour features, the whole of both
  weight matrices and of both bias rows, and writes back rows 5000 t ... 5000 t + 4999 of the output. Each
  written block is the matching rows of the projection, the twenty blocks cover all 100000 rows (row r lies
  in block r / 5000), so after the run the output array is the projection of the node features, the
  aggregated neighbour features, the weights and the biases.
-/
import proofs.«176327_j25950192402572_1_alg».proof.Proof.Gen.KernelIdeal.Value
import proofs.«176327_j25950192402572_1_alg».proof.Proof.BlockValue
import proofs.«176327_j25950192402572_1_alg».proof.Proof.Entry
import Idealize.ShloMosaic.Lib.Pipeline.Value
import Idealize.ShloMosaic.Lib.ValueLayout

noncomputable section

namespace Cert.Sage.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The index maps over the grid: the row-tiled windows (features, neighbour features, output) are at block
    row t, column block 0; the weights and bias rows stay at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block as part of its array -/

/-- The feature block at point t is rows 5000 t ... of the node features. -/
theorem feat_block (c : Dev nD) (t : Fin cfg0.N) (y : S5000x128.Idx) (i : S100000x128.Idx)
    (h0 : (i 0).val = 5000 * t.val + (y 0).val) (h1 : (i 1).val = (y 1).val) :
    (iblk m c 0 t : Vec Ideal S5000x128 .f32) y = ((m ((c : Thread nD τ).loc main_arg0)) : S100000x128.Idx → Ideal .f32) i := by
  obtain ⟨e0, e1, -⟩ := index_maps t
  rw [← V_main_arg0 m c]
  unfold iblk
  rw [View.read_apply]
  show V m c main_arg0 _ = V m c main_arg0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The neighbour block at point t is rows 5000 t ... of the aggregated neighbour features. -/
theorem hneigh_block (c : Dev nD) (t : Fin cfg0.N) (y : S5000x128.Idx) (i : S100000x128.Idx)
    (h0 : (i 0).val = 5000 * t.val + (y 0).val) (h1 : (i 1).val = (y 1).val) :
    (iblk m c 1 t : Vec Ideal S5000x128 .f32) y
      = Cert.ReferenceIdeal.Read.val_main_v18 (F := Ideal) (m ((c : Thread nD τ).loc main_arg0)) (m ((c : Thread nD τ).loc main_arg1)) (m ((c : Thread nD τ).loc main_arg2)) i := by
  obtain ⟨-, -, e0, e1, -⟩ := index_maps t
  rw [← Cert.Sage.Entry.hneigh_entry m c]
  unfold iblk
  rw [View.read_apply]
  show V m c main_v18 _ = V m c main_v18 _
  congr 1
  funext a
  apply Fin.ext
  match a with
  | ⟨0, _⟩ => show win0_1.index t (0 : Fin 2) * 5000 + 1 * (y 0).val = (i 0).val; rw [e0, h0]; omega
  | ⟨1, _⟩ => show win0_1.index t (1 : Fin 2) * 128 + 1 * (y 1).val = (i 1).val; rw [e1, h1]; omega

/-- The first weight block is the whole first weight matrix. -/
theorem wself_block (c : Dev nD) (t : Fin cfg0.N) :
    (iblk m c 2 t : Vec Ideal S128x128 .f32) = ((m ((c : Thread nD τ).loc main_arg3)) : S128x128.Idx → Ideal .f32) := by
  obtain ⟨-, -, -, -, e0, e1, -⟩ := index_maps t
  funext y
  rw [← V_main_arg3 m c]
  unfold iblk
  rw [View.read_apply]
  show V m c main_arg3 _ = V m c main_arg3 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The second weight block is the whole second weight matrix. -/
theorem wneigh_block (c : Dev nD) (t : Fin cfg0.N) :
    (iblk m c 3 t : Vec Ideal S128x128 .f32) = ((m ((c : Thread nD τ).loc main_arg5)) : S128x128.Idx → Ideal .f32) := by
  obtain ⟨-, -, -, -, -, -, e0, e1, -⟩ := index_maps t
  funext y
  rw [← V_main_arg5 m c]
  unfold iblk
  rw [View.read_apply]
  show V m c main_arg5 _ = V m c main_arg5 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The first bias block, read at (0, q), is the first bias vector at q. -/
theorem bself_block (c : Dev nD) (t : Fin cfg0.N) (q : Fin 128) :
    (iblk m c 4 t : Vec Ideal S1x128 .f32) (ix2 (0 : Fin 1) q) = ((m ((c : Thread nD τ).loc main_arg4)) : S128.Idx → Ideal .f32) (ix1 q) := by
  obtain ⟨-, -, -, -, -, -, -, -, e0, e1, -⟩ := index_maps t
  rw [← shapeCast_a_1a_apply ((m ((c : Thread nD τ).loc main_arg4)) : S128.Idx → Ideal .f32) shapeCasts_S128_S1x128 (0 : Fin 1) q,
    ← Cert.Sage.Entry.bself_entry m c]
  unfold iblk
  rw [View.read_apply]
  show V m c main_v19 _ = V m c main_v19 _
  congr 1
  funext a
  apply Fin.ext
  match a with
  | ⟨0, _⟩ => show win0_4.index t (0 : Fin 2) * 1 + 1 * 0 = 0; rw [e0]
  | ⟨1, _⟩ => show win0_4.index t (1 : Fin 2) * 128 + 1 * q.val = q.val; rw [e1]; omega

/-- The second bias block, read at (0, q), is the second bias vector at q. -/
theorem bneigh_block (c : Dev nD) (t : Fin cfg0.N) (q : Fin 128) :
    (iblk m c 5 t : Vec Ideal S1x128 .f32) (ix2 (0 : Fin 1) q) = ((m ((c : Thread nD τ).loc main_arg6)) : S128.Idx → Ideal .f32) (ix1 q) := by
  obtain ⟨-, -, -, -, -, -, -, -, -, -, e0, e1, -⟩ := index_maps t
  rw [← shapeCast_a_1a_apply ((m ((c : Thread nD τ).loc main_arg6)) : S128.Idx → Ideal .f32) shapeCasts_S128_S1x128 (0 : Fin 1) q,
    ← Cert.Sage.Entry.bneigh_entry m c]
  unfold iblk
  rw [View.read_apply]
  show V m c main_v20 _ = V m c main_v20 _
  congr 1
  funext a
  apply Fin.ext
  match a with
  | ⟨0, _⟩ => show win0_5.index t (0 : Fin 2) * 1 + 1 * 0 = 0; rw [e0]
  | ⟨1, _⟩ => show win0_5.index t (1 : Fin 2) * 128 + 1 * q.val = q.val; rw [e1]; omega

/-! ## The output array -/

/-- What the output array holds after the run: the projection of the arguments, the neighbour features
    aggregated from them as the reference aggregates them. -/
abbrev result (c : Dev nD) : Buf (Elt Ideal) ((c : Thread nD τ).loc main_v21) :=
  Cert.Sage.proj (m ((c : Thread nD τ).loc main_arg0)) (Cert.ReferenceIdeal.Read.val_main_v18 (F := Ideal) (m ((c : Thread nD τ).loc main_arg0)) (m ((c : Thread nD τ).loc main_arg1)) (m ((c : Thread nD τ).loc main_arg2)))
    (m ((c : Thread nD τ).loc main_arg3)) (m ((c : Thread nD τ).loc main_arg5)) (m ((c : Thread nD τ).loc main_arg4)) (m ((c : Thread nD τ).loc main_arg6))

/-- What point t writes back is block t of the projection. -/
theorem flushed_eq (c : Dev nD) (t : Fin cfg0.N) :
    (dats m 0 c).flushed 6 t = ((cfg0.win 6).blk t).view.read (Elt Ideal) (result m c) := by
  obtain ⟨-, -, -, -, -, -, -, -, -, -, -, -, e0, e1⟩ := index_maps t
  rw [flushed6]
  unfold out0_6
  rw [View.canon_unit_zero zero_offsets]
  simp only [View.ld_unit_zero (S := S5000x128) zero_offsets, View.ld_unit_zero (S := S128x128) zero_offsets,
    View.ld_unit_zero (S := S1x128) zero_offsets]
  funext j
  show k0_pay1 (F := Ideal) (iblk m c 0 t) (iblk m c 1 t) (iblk m c 2 t) (iblk m c 3 t) (iblk m c 4 t) (iblk m c 5 t) j
    = result m c (((cfg0.win 6).blk t).view.emb j)
  refine Cert.Sage.Body.stored_eq_proj (m ((c : Thread nD τ).loc main_arg0))
    (Cert.ReferenceIdeal.Read.val_main_v18 (F := Ideal) (m ((c : Thread nD τ).loc main_arg0)) (m ((c : Thread nD τ).loc main_arg1)) (m ((c : Thread nD τ).loc main_arg2)))
    (m ((c : Thread nD τ).loc main_arg3)) (m ((c : Thread nD τ).loc main_arg5)) (m ((c : Thread nD τ).loc main_arg4)) (m ((c : Thread nD τ).loc main_arg6))
    (iblk m c 0 t) (iblk m c 1 t) (iblk m c 2 t) (iblk m c 3 t) (iblk m c 4 t) (iblk m c 5 t) t.val
    (feat_block m c t) (hneigh_block m c t) (wself_block m c t) (wneigh_block m c t) (bself_block m c t) (bneigh_block m c t)
    j (((cfg0.win 6).blk t).view.emb j) ?_ ?_
  · show win0_6.index t (0 : Fin 2) * 5000 + 1 * (j 0).val = 5000 * t.val + (j 0).val
    rw [e0]; omega
  · show win0_6.index t (1 : Fin 2) * 128 + 1 * (j 1).val = (j 1).val
    rw [e1]; omega

/-- An index of the output array is in point t's block iff each coordinate is in the block's range. -/
theorem mem_block (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v21).slice (win0_6.rect t)).set ↔ _
  rw [View.set_slice_whole, Rect.mem_set_unit]
  exact Iff.rfl

/-- Every row lies in a block: row r in block r / 5000. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, -, -, -, -, -, -, e0, e1⟩ := index_maps t
  have ht : t.val = (i 0).val / 5000 := rfl
  refine ⟨t, flush0_6 t, ?_⟩
  rw [mem_block]
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 128 ≤ (i 1).val ∧ (i 1).val < win0_6.index t (1 : Fin 2) * 128 + 128; rw [e1]; omega

/-- After the run the output array is the projection. -/
theorem final (c : Dev nD) : (dats m 0 c).arrAt 6 cfg0.N = result m c :=
  (dats m 0 c).arrAt_eq_of_cover 6 (result m c) (fun t _ => flushed_eq m c t) covered

/-- The kernel's run, read: the output array at the projection, the arguments unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.Sage.Blocks

end
-- ==== Proof.lean ====
/- The proof of `Cert.Claim` (proofs.«176327_j25950192402572_1_alg».proof.Defs).

   The kernel is the dense projection of a mean-aggregating graph layer. Both programs first aggregate, on the
   host and by the same operations, the neighbour features h = neigh_sum / max(deg, 1) (a gather of feature
   rows by source node, a scatter-add by destination node, the same scatter-add of ones for the in-degree).
   The reference then takes two whole matrix products and adds two bias vectors,
   ((x * Ws + bs) + h * Wn) + bn; the kernel does the same on twenty blocks of 5000 rows, each product on the
   matrix unit into a zero accumulator with its operands narrowed first, which over the extended reals is
   the identity. Entry (p, q) of either result is
       ((sum_k x (p, k) * Ws (k, q)) + bs q) + (sum_k h (p, k) * Wn (k, q)) + bn q
   (Proof/Projection.lean), the sums over the same 128 products; addition of extended reals is commutative and
   associative, so no input need be finite for this.

   Proof/RefTail.lean reads the reference's last nine operations at an entry; Proof/Payload.lean reads what the
   kernel body stores at an entry of its block and Proof/BlockValue.lean places the block in the array;
   Proof/Entry.lean names the arrays the call finds (the aggregation by the reference's own term for it, never
   opened; the bias vectors as 1 x 128 rows); Proof/Blocks.lean goes from the twenty blocks to the whole
   output array. The three frames are the generated frame runs, and the kernel's idealization rewrote no
   operation. -/
import proofs.«176327_j25950192402572_1_alg».proof.Defs
import proofs.«176327_j25950192402572_1_alg».proof.Proof.Gen.Kernel
import proofs.«176327_j25950192402572_1_alg».proof.Proof.Gen.Kernel.Frame
import proofs.«176327_j25950192402572_1_alg».proof.Proof.Gen.KernelIdeal
import proofs.«176327_j25950192402572_1_alg».proof.Proof.Gen.KernelIdeal.Frame
import proofs.«176327_j25950192402572_1_alg».proof.Proof.Gen.KernelIdeal.Value
import proofs.«176327_j25950192402572_1_alg».proof.Proof.Gen.ReferenceIdeal
import proofs.«176327_j25950192402572_1_alg».proof.Proof.Gen.ReferenceIdeal.Run
import proofs.«176327_j25950192402572_1_alg».proof.Proof.Gen.ReferenceIdeal.Read
import proofs.«176327_j25950192402572_1_alg».proof.Proof.Gen.Pre_finite_inputs
import proofs.«176327_j25950192402572_1_alg».proof.Proof.RefTail
import proofs.«176327_j25950192402572_1_alg».proof.Proof.Blocks
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at the projection of the arguments, the neighbour features aggregated
    from the node features, the source nodes and the destination nodes by one and the same term. -/
theorem algebraic : Cert.algebraic_KernelIdeal_ReferenceIdeal := by
  intro m ρ m' ρ' _ hagree
  refine ⟨fun c => Cert.Sage.Blocks.result m c, Cert.Sage.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6, Cert.ReferenceIdeal.Read.val_main_v27_eq, Cert.Sage.Ref.result_eq_proj]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
